-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S16x16 : Shape := ⟨2, ![16, 16]⟩
abbrev S16 : Shape := ⟨1, ![16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4x4096x4096 .f32) (main_arg1 : FVec F S16x16 .f32) (main_arg2 : FVec F S16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S4x4096x4096 : Shape := ⟨3, ![4, 4096, 4096]⟩
abbrev S16x16 : Shape := ⟨2, ![16, 16]⟩
abbrev S16 : Shape := ⟨1, ![16]⟩
abbrev S16x1 : Shape := ⟨2, ![16, 1]⟩
abbrev S8x8 : Shape := ⟨2, ![8, 8]⟩
abbrev S_ : Shape := ⟨0, ![]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S524288x128 : Shape := ⟨2, ![524288, 128]⟩
abbrev S8192x128 : Shape := ⟨2, ![8192, 128]⟩

abbrev nBuf : Space → Nat
  | .hbm => 23
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S16x16, .f32⟩
  | .hbm, ⟨2, _⟩ => ⟨S16, .f32⟩
  | .hbm, ⟨3, _⟩ => ⟨S16x1, .f32⟩
  | .hbm, ⟨4, _⟩ => ⟨S16x16, .f32⟩
  | .hbm, ⟨5, _⟩ => ⟨S16x16, .f32⟩
  | .hbm, ⟨6, _⟩ => ⟨S16x16, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x1x8x1, .f32⟩
  | .hbm, ⟨15, _⟩ => ⟨S1x16x1x16, .f32⟩
  | .hbm, ⟨16, _⟩ => ⟨S8x16x8x16, .f32⟩
  | .hbm, ⟨17, _⟩ => ⟨S8x16x8x16, .f32⟩
  | .hbm, ⟨18, _⟩ => ⟨S8x16x8x16, .f32⟩
  | .hbm, ⟨19, _⟩ => ⟨S128x128, .f32⟩
  | .hbm, ⟨20, _⟩ => ⟨S524288x128, .f32⟩
  | .hbm, ⟨21, _⟩ => ⟨S524288x128, .f32⟩
  | .hbm, ⟨22, _⟩ => ⟨S4x4096x4096, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  transposes_S16x16_S16x16_1_0 : S16x16.Transposes [1, 0] S16x16
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  shapeCasts_S4x4096x4096_S524288x128 : S4x4096x4096.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S524288x128_S4x4096x4096 : S524288x128.ShapeCasts S4x4096x4096
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v11) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S16x16 : Shape := ⟨2, ![16, 16]⟩
abbrev S16 : Shape := ⟨1, ![16]⟩
abbrev S16x1 : Shape := ⟨2, ![16, 1]⟩
abbrev S4x4096x256x16 : Shape := ⟨4, ![4, 4096, 256, 16]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16x16, .f32⟩
  | .hbm, ⟨2, _⟩ => ⟨S16, .f32⟩
  | .hbm, ⟨3, _⟩ => ⟨S16x1, .f32⟩
  | .hbm, ⟨4, _⟩ => ⟨S16x16, .f32⟩
  | .hbm, ⟨5, _⟩ => ⟨S16x16, .f32⟩
  | .hbm, ⟨6, _⟩ => ⟨S4x4096x256x16, .f32⟩
  | .hbm, ⟨7, _⟩ => ⟨S4x4096x256x16, .f32⟩
  | .hbm, ⟨8, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S4x4096x4096_S4x4096x256x16 : S4x4096x4096.ShapeCasts S4x4096x256x16
  shapeCasts_S4x4096x256x16_S4x4096x4096 : S4x4096x256x16.ShapeCasts S4x4096x4096
  dot_S4x4096x256x16_S16x16_S4x4096x256x16_3_1_012_0_n_n_wf : DotDims.WF S4x4096x256x16 S16x16 S4x4096x256x16 [3] [1] [0, 1, 2] [0] [] []

variable [Facts₀]

def dot_S4x4096x256x16_S16x16_S4x4096x256x16_3_1_012_0_n_n : DotDims S4x4096x256x16 S16x16 S4x4096x256x16 where
  lhsContracting := [3]
  rhsContracting := [1]
  lhsNonContracting := [0, 1, 2]
  rhsNonContracting := [0]
  lhsBatch := []
  rhsBatch := []
  wf := dot_S4x4096x256x16_S16x16_S4x4096x256x16_3_1_012_0_n_n_wf

class Facts : Prop extends Facts₀ where

variable [Facts]
-- ==== Proof.TileMix.lean ====
/-
  Every 16-wide tile of a row multiplied by one 16 × 16 matrix, and the same product written block-diagonally.

  A row of 4096 features is cut into 256 tiles of 16. With h[j, i] = hadamard[j, i] · signs[j], entry j of a tile's
  image is the sum over i of tile[i] · h[j, i]. The same row can be cut into 32 groups of 128 = 8 · 16 features and each
  group multiplied by the 128 × 128 matrix W[16a + i, 16b + j] = δ(a, b) · h[j, i]: in the sum over the 128 positions
  16a + i of a group every term with a ≠ b carries the factor 0 · h[j, i] = 0, and a product with 0 is 0 on the
  extended reals whatever the other factor, so only tile b's sixteen terms remain, with the factor 1 · h[j, i].
  Nothing here needs the entries to be finite.
-/
import Idealize.ShloMosaic.Lib.ValueIdx
import Idealize.ShloMosaic.PureOps.Ideal.Laws

noncomputable section

namespace Cert.TileMix

open Idealize.ShloMosaic Idealize.ShloMosaic.ValueIdx

/-- Position `16a + i` of a group of 128: entry `i` of the group's tile `a`. -/
def lane (a : Fin 8) (i : Fin 16) : Fin 128 := ⟨16 * a.val + i.val, by omega⟩

/-- Feature `128q + 16b + j` of a row: entry `j` of tile `b` of group `q`. -/
def feat (q : Fin 32) (b : Fin 8) (j : Fin 16) : Fin 4096 := ⟨128 * q.val + 16 * b.val + j.val, by omega⟩

/-- Every feature is entry `j` of tile `b` of group `q` for some `q`, `b`, `j`. -/
theorem exists_feat (f : Fin 4096) : ∃ (q : Fin 32) (b : Fin 8) (j : Fin 16), f = feat q b j :=
  ⟨⟨f.val / 128, by omega⟩, ⟨f.val % 128 / 16, by omega⟩, ⟨f.val % 16, by omega⟩, Fin.ext (by
    show f.val = 128 * (f.val / 128) + 16 * (f.val % 128 / 16) + f.val % 16; omega)⟩

/-- Every position of a group is entry `i` of tile `a` for some `a`, `i`. -/
theorem exists_lane (k : Fin 128) : ∃ (a : Fin 8) (i : Fin 16), k = lane a i :=
  ⟨⟨k.val / 16, by omega⟩, ⟨k.val % 16, by omega⟩, Fin.ext (by show k.val = 16 * (k.val / 16) + k.val % 16; omega)⟩

/-- The 8 × 8 identity matrix's entries as extended reals. -/
def delta (a b : Fin 8) : EReal := if a = b then 1 else 0

/-- The positions of a group, tile by tile. -/
def laneEquiv : Fin 8 × Fin 16 ≃ Fin 128 where
  toFun p := lane p.1 p.2
  invFun k := (⟨k.val / 16, by omega⟩, ⟨k.val % 16, by omega⟩)
  left_inv p := Prod.ext (Fin.ext (by show (16 * p.1.val + p.2.val) / 16 = p.1.val; omega))
    (Fin.ext (by show (16 * p.1.val + p.2.val) % 16 = p.2.val; omega))
  right_inv k := Fin.ext (by show 16 * (k.val / 16) + k.val % 16 = k.val; omega)

/-- THE LAW. A sum over the 128 positions of a group against a column of the block-diagonal matrix — a column whose
    entry at position `16a + i` is `δ(a, b) · w i` — is the sum over tile `b`'s sixteen positions against `w`. -/
theorem blockdiag_sum (f wk : Fin 128 → EReal) (w : Fin 16 → EReal) (b : Fin 8)
    (hw : ∀ a i, wk (lane a i) = delta a b * w i) :
    ∑ k : Fin 128, f k * wk k = ∑ i : Fin 16, f (lane b i) * w i := by
  rw [← Equiv.sum_comp laneEquiv, Fintype.sum_prod_type, Finset.sum_eq_single b]
  · refine Finset.sum_congr rfl fun i _ => ?_
    show f (lane b i) * wk (lane b i) = _
    rw [hw, delta, if_pos rfl, one_mul]
  · intro a _ hab
    refine Finset.sum_eq_zero fun i _ => ?_
    show f (lane a i) * wk (lane a i) = 0
    rw [hw, delta, if_neg hab, zero_mul, mul_zero]
  · intro h; exact absurd (Finset.mem_univ b) h

/-- THE RESULT both programs compute: entry (n, s, f) is the product of the tile holding feature `f` with row `f mod 16`
    of `h`, `h[j, i] = hadamard[j, i] · signs[j]`. -/
def mixed (x : FVec Ideal ⟨3, ![4, 4096, 4096]⟩ .f32) (had : FVec Ideal ⟨2, ![16, 16]⟩ .f32) (sg : FVec Ideal ⟨1, ![16]⟩ .f32) :
    FVec Ideal ⟨3, ![4, 4096, 4096]⟩ .f32 := fun idx =>
  ∑ i : Fin 16, x (ix3 (idx 0) (idx 1) ⟨16 * ((idx 2).val / 16) + i.val, by have : (idx 2).val < 4096 := (idx 2).isLt; omega⟩)
    * (had (ix2 ⟨(idx 2).val % 16, by omega⟩ i) * sg (ix1 ⟨(idx 2).val % 16, by omega⟩))

/-- The result at entry `j` of tile `b` of group `q`: the tile's sixteen features against row `j` of `h`. -/
theorem mixed_feat (x : FVec Ideal ⟨3, ![4, 4096, 4096]⟩ .f32) (had : FVec Ideal ⟨2, ![16, 16]⟩ .f32) (sg : FVec Ideal ⟨1, ![16]⟩ .f32)
    (n : Fin 4) (s : Fin 4096) (q : Fin 32) (b : Fin 8) (j : Fin 16) :
    mixed x had sg (ix3 n s (feat q b j)) = ∑ i : Fin 16, x (ix3 n s (feat q b i)) * (had (ix2 j i) * sg (ix1 j)) := by
  unfold mixed
  refine Finset.sum_congr rfl fun i _ => ?_
  have e1 : ∀ h, (⟨16 * ((ix3 n s (feat q b j) 2).val / 16) + i.val, h⟩ : Fin 4096) = feat q b i := fun _ =>
    Fin.ext (by show 16 * ((128 * q.val + 16 * b.val + j.val) / 16) + i.val = 128 * q.val + 16 * b.val + i.val; omega)
  have e2 : ∀ h, (⟨(ix3 n s (feat q b j) 2).val % 16, h⟩ : Fin 16) = j := fun _ =>
    Fin.ext (by show (128 * q.val + 16 * b.val + j.val) % 16 = j.val; omega)
  rw [e1, e2]

end Cert.TileMix

end
-- ==== Proof.RefValue.lean ====
/-
  The reference's result is the tile product.

  The reference lays signs[j] along row j of a 16 × 16 matrix and multiplies it into hadamard, giving h[j, i]; it views
  the input as [4, 4096, 256, 16] (feature f is entry f mod 16 of tile f / 16), contracts the last axis of that view with
  the last axis of h, and views the result as [4, 4096, 4096] again. Read at (n, s, f): the sum over i of
  x[n, s, 16 · (f / 16) + i] · h[f mod 16, i] — the entry of `TileMix.mixed`. Only the positions of the two views have to
  be matched, and those are equalities of row-major positions.
-/
import proofs.«146158_j37160057045074_1_alg».proof.Proof.Gen.ReferenceIdeal.Read
import proofs.«146158_j37160057045074_1_alg».proof.Proof.TileMix

noncomputable section

namespace Cert.ReferenceIdeal.RefValue

open Cert.ReferenceIdeal Cert.ReferenceIdeal.Read Idealize.ShloMosaic Idealize.ShloMosaic.ValueIdx Cert.TileMix

/-- The input entry the contraction reads at position `k` for the result's entry `idx`: same batch and sequence
    position, feature `16 · (f / 16) + k`. -/
theorem lhs_index (idx : S4x4096x4096.Idx) (k : Fin 16) (h) :
    idx_main_v3 (lidx_main_v4 (idx_main_v5 idx) k) = ix3 (idx 0) (idx 1) ⟨16 * ((idx 2).val / 16) + k.val, h⟩ :=
  funext fun a => Fin.ext (by
    have h0 : (idx 0).val < 4 := (idx 0).isLt; have h1 : (idx 1).val < 4096 := (idx 1).isLt; have h2 : (idx 2).val < 4096 := (idx 2).isLt; have hk : k.val < 16 := k.isLt
    match a with
    | ⟨0, _⟩ => show (((((((idx 0).val * 4096 + (idx 1).val) * 4096 + (idx 2).val) / 16777216) * 4096 + ((((idx 0).val * 4096 + (idx 1).val) * 4096 + (idx 2).val) / 4096 % 4096)) * 256 + ((((idx 0).val * 4096 + (idx 1).val) * 4096 + (idx 2).val) / 16 % 256)) * 16 + k.val) / 16777216 = (idx 0).val; omega
    | ⟨1, _⟩ => show (((((((idx 0).val * 4096 + (idx 1).val) * 4096 + (idx 2).val) / 16777216) * 4096 + ((((idx 0).val * 4096 + (idx 1).val) * 4096 + (idx 2).val) / 4096 % 4096)) * 256 + ((((idx 0).val * 4096 + (idx 1).val) * 4096 + (idx 2).val) / 16 % 256)) * 16 + k.val) / 4096 % 4096 = (idx 1).val; omega
    | ⟨2, _⟩ => show (((((((idx 0).val * 4096 + (idx 1).val) * 4096 + (idx 2).val) / 16777216) * 4096 + ((((idx 0).val * 4096 + (idx 1).val) * 4096 + (idx 2).val) / 4096 % 4096)) * 256 + ((((idx 0).val * 4096 + (idx 1).val) * 4096 + (idx 2).val) / 16 % 256)) * 16 + k.val) % 4096 = 16 * ((idx 2).val / 16) + k.val; omega)

/-- The matrix entry it reads: row `f mod 16`, column `k`. -/
theorem rhs_index (idx : S4x4096x4096.Idx) (k : Fin 16) (h) :
    ridx_main_v4 (idx_main_v5 idx) k = ix2 ⟨(idx 2).val % 16, h⟩ k :=
  funext fun a => Fin.ext (by
    have h0 : (idx 0).val < 4 := (idx 0).isLt; have h1 : (idx 1).val < 4096 := (idx 1).isLt; have h2 : (idx 2).val < 4096 := (idx 2).isLt; have hk : k.val < 16 := k.isLt
    match a with
    | ⟨0, _⟩ => show (((idx 0).val * 4096 + (idx 1).val) * 4096 + (idx 2).val) % 16 = (idx 2).val % 16; omega
    | ⟨1, _⟩ => rfl)

/-- The sign laid along row `r` of the matrix: entry `r`, whatever the column. -/
theorem sign_index (r k : Fin 16) : idx_main_v0 (idx_main_v1 (ix2 r k)) = ix1 r :=
  funext fun a => Fin.ext (by
    match a with
    | ⟨0, _⟩ => rfl)

/-- The reference's result, stage by stage down to its arguments, is the tile product. -/
theorem result_eq (x : FVec Ideal S4x4096x4096 .f32) (had : FVec Ideal S16x16 .f32) (sg : FVec Ideal S16 .f32) :
    val_main_v5 (F := Ideal) x had sg = mixed x had sg := by
  funext idx
  rw [val_main_v5_apply, val_main_v4_apply]
  unfold mixed
  refine Finset.sum_congr rfl fun k _ => ?_
  rw [val_main_v3_apply, val_main_v2_apply, val_main_v1_apply, val_main_v0_apply, lhs_index, rhs_index, sign_index]
  rfl

end Cert.ReferenceIdeal.RefValue

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KernelBody.lean ====
/-
  What one grid point computes: a tile of rows times the whole 128 × 128 matrix.

  The body loads its 8192 × 128 block of rows and the 128 × 128 matrix, narrows both to bf16 (no change of value on the
  extended reals), and multiplies rows by columns into a zero accumulator. Entry (r, j) of what it stores is the sum
  over k of row[r, k] · W[k, j].
-/
import proofs.«146158_j37160057045074_1_alg».proof.Proof.Gen.KernelIdeal.Skeleton
import proofs.«146158_j37160057045074_1_alg».proof.Proof.LibDense
import Idealize.ShloMosaic.Lib.Pipeline.Value

noncomputable section

namespace Cert.KernelIdeal.Body

open Cert.KernelIdeal Cert.KernelIdeal.Gen Idealize.ShloMosaic Idealize.ShloMosaic.ValueIdx

/-- The body's product is the rows-by-columns one: nothing batched, the left operand contracted on its columns, the
    right on its rows. -/
theorem dot_plain : dot_S8192x128_S128x128_S8192x128_1_0_0_1_n_n = DotDims.plain 8192 128 128 := rfl

/-- The stored value at (r, j): row `r` of the block against column `j` of the matrix. -/
theorem pay_apply (x0 : Vec Ideal S8192x128 .f32) (x1 : Vec Ideal S128x128 .f32) (r : Fin 8192) (j : Fin 128) :
    k0_pay1 (F := Ideal) x0 x1 (ix2 r j) = ∑ k : Fin 128, x0 (ix2 r k) * x1 (ix2 k j) := by
  unfold k0_pay1
  show FloatOps.matmul dot_S8192x128_S128x128_S8192x128_1_0_0_1_n_n none
      (truncf (F := Ideal) .bf16 (shapeCast S8192x128 x0 shapeCasts_S8192x128_S8192x128) bitsLt_bf16_f32)
      (truncf (F := Ideal) .bf16 (shapeCast S128x128 x1 shapeCasts_S128x128_S128x128) bitsLt_bf16_f32)
      (constant (F := Ideal) S8192x128 .f32 0x00000000#32) (ix2 r j) = _
  rw [dot_plain, LibDense.matmul_plain_zero_apply, shapeCast_self, shapeCast_self]
  rfl

end Cert.KernelIdeal.Body

end
-- ==== Proof.KernelHost.lean ====
/-
  What the kernel's region finds in its two input arrays.

  Before the region the host builds, from hadamard and signs, the 16 × 16 matrix w[i, j] = hadamard[j, i] · signs[j] (the
  sign laid along rows, then a transpose), the 8 × 8 identity (row number equal to column number, as 1.0 or 0.0), and
  their Kronecker product viewed as 128 × 128: W[16a + i, 16b + j] = δ(a, b) · w[i, j]. It also views the input
  [4, 4096, 4096] as [524288, 128]: row (n · 4096 + s) · 32 + q holds features 128q … 128q + 127 of (n, s).
-/
import proofs.«146158_j37160057045074_1_alg».proof.Proof.Gen.KernelIdeal.Frame
import proofs.«146158_j37160057045074_1_alg».proof.Proof.TileMix
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.TileMix

/-- Row `(n · 4096 + s) · 32 + q` of the [524288, 128] view: group `q` of the features of (n, s). -/
def row (n : Fin 4) (s : Fin 4096) (q : Fin 32) : Fin 524288 := ⟨(n.val * 4096 + s.val) * 32 + q.val, by omega⟩

/-- Every row of the view is some group of some (n, s). -/
theorem exists_row (R : Fin 524288) : ∃ (n : Fin 4) (s : Fin 4096) (q : Fin 32), R = row n s q :=
  ⟨⟨R.val / 131072, by omega⟩, ⟨R.val / 32 % 4096, by omega⟩, ⟨R.val % 32, by omega⟩, Fin.ext (by
    show R.val = (R.val / 131072 * 4096 + R.val / 32 % 4096) * 32 + R.val % 32; omega)⟩

/-! ## The block-diagonal matrix -/

/-- The 8 × 8 identity as the host spells it: the row number compared with the column number, the bit as a float. -/
def eye : FVec Ideal S8x8 .f32 :=
  uitofp (F := Ideal) .f32 (cmpi .eq (addi (iotaInDim S8x8 32 0) (broadcastInDim S8x8 ![] bcast_S_S8x8 (constantI S_ 32 0#32)))
    (iotaInDim S8x8 32 1))

/-- The 16 × 16 factor: hadamard with signs laid along its rows, transposed. -/
def tile (had : FVec Ideal S16x16 .f32) (sg : FVec Ideal S16 .f32) : FVec Ideal S16x16 .f32 :=
  transpose S16x16 [1, 0] (mulf had (broadcastInDim S16x16 ![0, 1] bcast_S16x1_S16x16_0_1 (broadcastInDim S16x1 ![0] bcast_S16_S16x1_0 sg)))
    transposes_S16x16_S16x16_1_0

/-- Their Kronecker product, viewed as 128 × 128. -/
def kron (E : FVec Ideal S8x8 .f32) (T : FVec Ideal S16x16 .f32) : FVec Ideal S128x128 .f32 :=
  shapeCast S128x128 (mulf (broadcastInDim S8x16x8x16 ![0, 1, 2, 3] bcast_S8x1x8x1_S8x16x8x16_0_1_2_3
      (broadcastInDim S8x1x8x1 ![0, 2] bcast_S8x8_S8x1x8x1_0_2 E))
    (broadcastInDim S8x16x8x16 ![0, 1, 2, 3] bcast_S1x16x1x16_S8x16x8x16_0_1_2_3
      (broadcastInDim S1x16x1x16 ![1, 3] bcast_S16x16_S1x16x1x16_1_3 T))) shapeCasts_S8x16x8x16_S128x128

/-- Row number equal to column number, as a word comparison, decided over the 64 entries. -/
theorem identity_entry : ∀ a b : Fin 8,
    (IntOp.cmpi .eq (IntOp.addi (BitVec.ofNat 32 a.val) 0#32) (BitVec.ofNat 32 b.val)).toNat = if a = b then 1 else 0 := by
  decide

/-- The identity's entry (a, b) is 1 on the diagonal and 0 off it. -/
theorem eye_apply (a b : Fin 8) : eye (ix2 a b) = delta a b := by
  show (((IntOp.cmpi .eq (IntOp.addi (BitVec.ofNat 32 a.val) 0#32) (BitVec.ofNat 32 b.val)).toNat : ℝ) : EReal) = _
  rw [identity_entry a b]
  unfold delta
  by_cases h : a = b
  · rw [if_pos h, if_pos h]; simp
  · rw [if_neg h, if_neg h]; simp

/-- The 16 × 16 factor's entry (i, j) is hadamard[j, i] · signs[j]. -/
theorem tile_apply (had : FVec Ideal S16x16 .f32) (sg : FVec Ideal S16 .f32) (i j : Fin 16) :
    tile had sg (ix2 i j) = had (ix2 j i) * sg (ix1 j) := by
  unfold tile
  refine (transpose_apply [1, 0] _ transposes_S16x16_S16x16_1_0 (ix2 i j) (ix2 j i) (fun b => by
    match b with
    | ⟨0, _⟩ => rfl
    | ⟨1, _⟩ => rfl)).trans ?_
  rw [mulf_apply]
  refine congrArg (had (ix2 j i) * ·) ?_
  refine (broadcastInDim_apply ![0, 1] bcast_S16x1_S16x16_0_1 _ (ix2 j i) (ix2 j (0 : Fin 1)) (fun a => by
    match a with
    | ⟨0, _⟩ => show j.val = if (16 : Nat) = 1 then 0 else j.val; rw [if_neg (by decide)]
    | ⟨1, _⟩ => show 0 = if (1 : Nat) = 1 then 0 else i.val; rw [if_pos rfl])).trans ?_
  exact broadcastInDim_apply ![0] bcast_S16_S16x1_0 sg (ix2 j (0 : Fin 1)) (ix1 j) (fun a => by
    match a with
    | ⟨0, _⟩ => show j.val = if (16 : Nat) = 1 then 0 else j.val; rw [if_neg (by decide)])

/-- The Kronecker product's entry (16a + i, 16b + j) is E[a, b] · T[i, j]. -/
theorem kron_apply (E : FVec Ideal S8x8 .f32) (T : FVec Ideal S16x16 .f32) (a : Fin 8) (i : Fin 16) (b : Fin 8) (j : Fin 16) :
    kron E T (ix2 (lane a i) (lane b j)) = E (ix2 a b) * T (ix2 i j) := by
  unfold kron
  refine (shapeCast_apply _ shapeCasts_S8x16x8x16_S128x128 (ix2 (lane a i) (lane b j)) (ix4 a i b j) (by
    rewrite [Shape.rowMajor_val_four, Shape.rowMajor_val_two]
    show ((a.val * 16 + i.val) * 8 + b.val) * 16 + j.val = (16 * a.val + i.val) * 128 + (16 * b.val + j.val)
    omega)).trans ?_
  rw [mulf_apply]
  have hE : broadcastInDim S8x16x8x16 ![0, 1, 2, 3] bcast_S8x1x8x1_S8x16x8x16_0_1_2_3
      (broadcastInDim S8x1x8x1 ![0, 2] bcast_S8x8_S8x1x8x1_0_2 E) (ix4 a i b j) = E (ix2 a b) := by
    refine (broadcastInDim_apply ![0, 1, 2, 3] bcast_S8x1x8x1_S8x16x8x16_0_1_2_3 _ (ix4 a i b j)
      (ix4 a (0 : Fin 1) b (0 : Fin 1)) (fun d => by
        match d with
        | ⟨0, _⟩ => show a.val = if (8 : Nat) = 1 then 0 else a.val; rw [if_neg (by decide)]
        | ⟨1, _⟩ => show 0 = if (1 : Nat) = 1 then 0 else i.val; rw [if_pos rfl]
        | ⟨2, _⟩ => show b.val = if (8 : Nat) = 1 then 0 else b.val; rw [if_neg (by decide)]
        | ⟨3, _⟩ => show 0 = if (1 : Nat) = 1 then 0 else j.val; rw [if_pos rfl])).trans ?_
    exact broadcastInDim_apply ![0, 2] bcast_S8x8_S8x1x8x1_0_2 E (ix4 a (0 : Fin 1) b (0 : Fin 1)) (ix2 a b) (fun d => by
      match d with
      | ⟨0, _⟩ => show a.val = if (8 : Nat) = 1 then 0 else a.val; rw [if_neg (by decide)]
      | ⟨1, _⟩ => show b.val = if (8 : Nat) = 1 then 0 else b.val; rw [if_neg (by decide)])
  have hT : broadcastInDim S8x16x8x16 ![0, 1, 2, 3] bcast_S1x16x1x16_S8x16x8x16_0_1_2_3
      (broadcastInDim S1x16x1x16 ![1, 3] bcast_S16x16_S1x16x1x16_1_3 T) (ix4 a i b j) = T (ix2 i j) := by
    refine (broadcastInDim_apply ![0, 1, 2, 3] bcast_S1x16x1x16_S8x16x8x16_0_1_2_3 _ (ix4 a i b j)
      (ix4 (0 : Fin 1) i (0 : Fin 1) j) (fun d => by
        match d with
        | ⟨0, _⟩ => show 0 = if (1 : Nat) = 1 then 0 else a.val; rw [if_pos rfl]
        | ⟨1, _⟩ => show i.val = if (16 : Nat) = 1 then 0 else i.val; rw [if_neg (by decide)]
        | ⟨2, _⟩ => show 0 = if (1 : Nat) = 1 then 0 else b.val; rw [if_pos rfl]
        | ⟨3, _⟩ => show j.val = if (16 : Nat) = 1 then 0 else j.val; rw [if_neg (by decide)])).trans ?_
    exact broadcastInDim_apply ![1, 3] bcast_S16x16_S1x16x1x16_1_3 T (ix4 (0 : Fin 1) i (0 : Fin 1) j) (ix2 i j) (fun d => by
      match d with
      | ⟨0, _⟩ => show i.val = if (16 : Nat) = 1 then 0 else i.val; rw [if_neg (by decide)]
      | ⟨1, _⟩ => show j.val = if (16 : Nat) = 1 then 0 else j.val; rw [if_neg (by decide)])
  rw [hE, hT]

/-- THE MATRIX the region multiplies by: at (16a + i, 16b + j) it is δ(a, b) · (hadamard[j, i] · signs[j]). -/
theorem matrix_apply (had : FVec Ideal S16x16 .f32) (sg : FVec Ideal S16 .f32) (a : Fin 8) (i : Fin 16) (b : Fin 8) (j : Fin 16) :
    kron eye (tile had sg) (ix2 (lane a i) (lane b j)) = delta a b * (had (ix2 j i) * sg (ix1 j)) := by
  rw [kron_apply, eye_apply, tile_apply]

/-! ## The input viewed as rows of 128 -/

/-- The [524288, 128] view at (row of (n, s, q), position 16a + i) is the input at (n, s, feature 128q + 16a + i). -/
theorem rows_apply (x : FVec Ideal S4x4096x4096 .f32) (n : Fin 4) (s : Fin 4096) (q : Fin 32) (a : Fin 8) (i : Fin 16) :
    shapeCast S524288x128 x shapeCasts_S4x4096x4096_S524288x128 (ix2 (row n s q) (lane a i)) = x (ix3 n s (feat q a i)) :=
  shapeCast_apply x shapeCasts_S4x4096x4096_S524288x128 (ix2 (row n s q) (lane a i)) (ix3 n s (feat q a i)) (by
    rewrite [Shape.rowMajor_val_three, Shape.rowMajor_val_two]
    show (n.val * 4096 + s.val) * 4096 + (128 * q.val + 16 * a.val + i.val)
      = ((n.val * 4096 + s.val) * 32 + q.val) * 128 + (16 * a.val + i.val)
    omega)

/-- The [4, 4096, 4096] view of a [524288, 128] array at (n, s, feature 128q + 16b + j) is the array at
    (row of (n, s, q), position 16b + j). -/
theorem unrows_apply (y : FVec Ideal S524288x128 .f32) (n : Fin 4) (s : Fin 4096) (q : Fin 32) (b : Fin 8) (j : Fin 16) :
    shapeCast S4x4096x4096 y shapeCasts_S524288x128_S4x4096x4096 (ix3 n s (feat q b j)) = y (ix2 (row n s q) (lane b j)) :=
  shapeCast_apply y shapeCasts_S524288x128_S4x4096x4096 (ix3 n s (feat q b j)) (ix2 (row n s q) (lane b j)) (by
    rewrite [Shape.rowMajor_val_two, Shape.rowMajor_val_three]
    show ((n.val * 4096 + s.val) * 32 + q.val) * 128 + (16 * b.val + j.val)
      = (n.val * 4096 + s.val) * 4096 + (128 * q.val + 16 * b.val + j.val)
    omega)

/-! ## The arrays as the region finds them -/

variable (m : (ℓ : Loc nD τ sig) → Buf (Elt Ideal) ℓ)

/-- The region's matrix operand is the Kronecker product built from the arguments. -/
theorem matrix_eq (c : Dev nD) : (V m c main_v10 : S128x128.Idx → EReal)
    = kron eye (tile (m ((c : Thread nD τ).loc main_arg1)) (m ((c : Thread nD τ).loc main_arg2))) := by
  dsimp only [V, V0]
  simp only [hostOps0, hostOps0_1, hostOps0_2, List.flatten_cons, List.flatten_nil, List.append_nil, List.cons_append,
    List.nil_append]
  after_results
  rfl

/-- The region's row operand is the input viewed as rows of 128. -/
theorem rows_eq (c : Dev nD) : (V m c main_v11 : S524288x128.Idx → EReal)
    = shapeCast S524288x128 (m ((c : Thread nD τ).loc main_arg0)) shapeCasts_S4x4096x4096_S524288x128 := by
  dsimp only [V, V0]
  simp only [hostOps0, hostOps0_1, hostOps0_2, List.flatten_cons, List.flatten_nil, List.append_nil, List.cons_append,
    List.nil_append]
  after_results
  rfl

end Cert.KernelIdeal.HostValue

end
-- ==== Proof.KernelArray.lean ====
/-
  The kernel's result array.

  Grid point t multiplies rows 8192t … 8192t + 8191 of the [524288, 128] view by the whole 128 × 128 matrix and writes
  the product back to the same rows of the output. Every point therefore writes a block of ONE array, the product of
  the whole view with the matrix; the 64 blocks tile the output, so after the region the output IS that product. The
  host then views it as [4, 4096, 4096]. Read at (n, s, feature 128q + 16b + j) that is row (n, s, q) of the view
  against column 16b + j of the block-diagonal matrix, and the block-diagonal law leaves tile b's sixteen terms: the
  entry of the tile product.
-/
import proofs.«146158_j37160057045074_1_alg».proof.Proof.Gen.KernelIdeal.Frame
import proofs.«146158_j37160057045074_1_alg».proof.Proof.TileMix
import proofs.«146158_j37160057045074_1_alg».proof.Proof.KernelBody
import proofs.«146158_j37160057045074_1_alg».proof.Proof.KernelHost

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx Cert.TileMix
open Idealize.ShloMosaic.Pipeline (Dat)

variable (m : (ℓ : Loc nD τ sig) → Buf (Elt Ideal) ℓ) (ρ : Dev nD → PrngReg)

/-- Rows times matrix over the whole arrays: entry (R, p) is row `R` of `X` against column `p` of `W`. -/
def prod (X : FVec Ideal S524288x128 .f32) (W : FVec Ideal S128x128 .f32) : FVec Ideal S524288x128 .f32 :=
  fun idx => ∑ k : Fin 128, X (ix2 (idx 0) k) * W (ix2 k (idx 1))

/-- The region's row operand and matrix operand as it finds them, at their literal types. -/
abbrev rowsArr (c : Dev nD) : FVec Ideal S524288x128 .f32 := V m c main_v11
abbrev matArr (c : Dev nD) : FVec Ideal S128x128 .f32 := V m c main_v10

/-- The three arguments as launched, at their literal types. -/
abbrev xArr (c : Dev nD) : FVec Ideal S4x4096x4096 .f32 := m ((c : Thread nD τ).loc main_arg0)
abbrev hadArr (c : Dev nD) : FVec Ideal S16x16 .f32 := m ((c : Thread nD τ).loc main_arg1)
abbrev sgArr (c : Dev nD) : FVec Ideal S16 .f32 := m ((c : Thread nD τ).loc main_arg2)

/-- The row operand is the input viewed as rows of 128; the matrix operand is the Kronecker product of the identity with
    the sign-scaled, transposed hadamard. -/
theorem rowsArr_eq (c : Dev nD) : rowsArr m c
    = shapeCast S524288x128 (xArr m c) shapeCasts_S4x4096x4096_S524288x128 := HostValue.rows_eq m c
theorem matArr_eq (c : Dev nD) : matArr m c
    = HostValue.kron HostValue.eye (HostValue.tile (hadArr m c) (sgArr m c)) := HostValue.matrix_eq m c

theorem hz : (![0, 0] : Fin 2 → Nat) = fun _ => 0 := funext fun a => by fin_cases a <;> rfl

/-- The printed index maps over the grid: the row operand's block moves with the output's, down the rows only; the
    matrix is always its one whole block. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the 64 row blocks is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- WHAT POINT `t` WRITES BACK is block `t` of the whole product. -/
theorem flushed_eq (c : Dev nD) (t : Fin cfg0.N) :
    (dats m 0 c).flushed 2 t = ((cfg0.win 2).blk t).view.read (Elt Ideal) (prod (rowsArr m c) (matArr m c)) := by
  show (cfg0.win 2).cut (grid0.coords t) ((dats m 0 c).after 2 t) = _
  rw [after0_2]
  unfold out0_2
  rw [View.canon_unit_zero hz]
  simp only [View.ld_unit_zero (S := S8192x128) hz, View.ld_unit_zero (S := S128x128) hz]
  obtain ⟨e0, e1, e2, e3, e4⟩ := idx_facts t
  funext y
  obtain ⟨r, j, rfl⟩ : ∃ (r : Fin 8192) (j : Fin 128), y = ix2 r j := ⟨y 0, y 1, eq_ix2 y⟩
  show k0_pay1 (iblk m c 0 t) (iblk m c 1 t) (ix2 r j)
    = prod (rowsArr m c) (matArr m c) (((cfg0.win 2).blk t).view.emb (ix2 r j))
  refine (Body.pay_apply (iblk m c 0 t) (iblk m c 1 t) r j).trans ?_
  unfold prod
  refine Finset.sum_congr rfl fun k _ => ?_
  show rowsArr m c (((cfg0.win 0).blk t).view.emb (ix2 r k)) * matArr m c (((cfg0.win 1).blk t).view.emb (ix2 k j))
    = rowsArr m c (ix2 ((((cfg0.win 2).blk t).view.emb (ix2 r j)) 0) k)
      * matArr m c (ix2 k ((((cfg0.win 2).blk t).view.emb (ix2 r j)) 1))
  have h0 : ((cfg0.win 0).blk t).view.emb (ix2 r k) = ix2 ((((cfg0.win 2).blk t).view.emb (ix2 r j)) 0) k := by
    funext a; apply Fin.ext
    match a with
    | ⟨0, _⟩ => show win0_0.index t (0 : Fin 2) * 8192 + 1 * r.val = win0_2.index t (0 : Fin 2) * 8192 + 1 * r.val; omega
    | ⟨1, _⟩ => show win0_0.index t (1 : Fin 2) * 128 + 1 * k.val = k.val; omega
  have h1 : ((cfg0.win 1).blk t).view.emb (ix2 k j) = ix2 k ((((cfg0.win 2).blk t).view.emb (ix2 r j)) 1) := by
    funext a; apply Fin.ext
    match a with
    | ⟨0, _⟩ => show win0_1.index t (0 : Fin 2) * 128 + 1 * k.val = k.val; omega
    | ⟨1, _⟩ => show win0_1.index t (1 : Fin 2) * 128 + 1 * j.val = win0_2.index t (1 : Fin 2) * 128 + 1 * j.val; omega
  rw [h0, h1]
  rfl

/-- An index of the output is in point `t`'s block iff each coordinate is in the block's range on its axis. -/
theorem mem_blk (t : Fin cfg0.N) (i : S524288x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v12).slice (win0_2.rect t)).set ↔ _
  rw [View.set_slice_whole, Rect.mem_set_unit]
  exact Iff.rfl

/-- THE COVER: row `R` is in the block of the point whose row block is `R / 8192`. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- THE OUTPUT ARRAY after the region is the whole product. -/
theorem final (c : Dev nD) : (dats m 0 c).arrAt 2 cfg0.N = prod (rowsArr m c) (matArr m c) :=
  (dats m 0 c).arrAt_eq_of_cover 2 _ (fun t _ => flushed_eq m c t) cover

/-- The host's view of it as [4, 4096, 4096], which is @main's result. -/
theorem tail_eq (c : Dev nD) : Pipeline.afterTail₀ cfgs (dats m) 0 (V0 m) [hostOps1] c main_v13
    = shapeCast S4x4096x4096 (prod (rowsArr m c) (matArr m c)) shapeCasts_S524288x128_S4x4096x4096 := by
  unfold Pipeline.afterTail₀
  show StableHlo.after hostOps1 _ (Proc.devRef .tc main_v13) = _
  after_results
  exact congrArg (fun z => shapeCast S4x4096x4096 z shapeCasts_S524288x128_S4x4096x4096)
    ((Pipeline.withArrays_arr spec0 launch0.win.arr_inj c _ _ 2).trans (final m c))

/-- THE RESULT at (n, s, feature 128q + 16b + j): the block-diagonal law on row (n, s, q) of the view. -/
theorem value_apply (c : Dev nD) (n : Fin 4) (s : Fin 4096) (q : Fin 32) (b : Fin 8) (j : Fin 16) :
    shapeCast S4x4096x4096 (prod (rowsArr m c) (matArr m c)) shapeCasts_S524288x128_S4x4096x4096 (ix3 n s (feat q b j))
      = mixed (xArr m c) (hadArr m c) (sgArr m c) (ix3 n s (feat q b j)) := by
  rw [HostValue.unrows_apply, mixed_feat]
  show ∑ k : Fin 128, rowsArr m c (ix2 (HostValue.row n s q) k) * matArr m c (ix2 k (lane b j)) = _
  rw [rowsArr_eq, matArr_eq]
  refine (blockdiag_sum
    (fun k => shapeCast S524288x128 (xArr m c) shapeCasts_S4x4096x4096_S524288x128 (ix2 (HostValue.row n s q) k))
    (fun k => HostValue.kron HostValue.eye (HostValue.tile (hadArr m c) (sgArr m c)) (ix2 k (lane b j)))
    (fun i => hadArr m c (ix2 j i) * sgArr m c (ix1 j)) b
    (fun a i => HostValue.matrix_apply _ _ a i b j)).trans ?_
  refine Finset.sum_congr rfl fun i _ => ?_
  show shapeCast S524288x128 (xArr m c) shapeCasts_S4x4096x4096_S524288x128 (ix2 (HostValue.row n s q) (lane b i)) * _ = _
  rw [HostValue.rows_apply]

/-- The result array is the tile product of the arguments. -/
theorem value_eq (c : Dev nD) :
    shapeCast S4x4096x4096 (prod (rowsArr m c) (matArr m c)) shapeCasts_S524288x128_S4x4096x4096
      = mixed (xArr m c) (hadArr m c) (sgArr m c) := by
  funext idx
  obtain ⟨n, s, f, rfl⟩ : ∃ (n : Fin 4) (s : Fin 4096) (f : Fin 4096), idx = ix3 n s f := ⟨idx 0, idx 1, idx 2, eq_ix3 idx⟩
  obtain ⟨q, b, j, rfl⟩ := exists_feat f
  exact value_apply m c n s q b j

/-- THE KERNEL'S RUN: every weakly fair execution terminates with the result at the tile product of the arguments and the
    arguments unchanged. -/
theorem run : θ_run defs (onTc (τ := τ) (main (F := Ideal))) ⟨m, fun _ => 0, ρ⟩ fun r => ∀ c : Dev nD,
      r.2.mem ((c.tc : Thread nD τ).loc main_v13)
        = mixed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans ((tail_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.lean ====
/-
  Each 16-wide tile of the last axis times one 16 × 16 matrix: a 128-wide block-diagonal kernel against a per-tile
  contraction.

  Both programs form h[j, i] = hadamard[j, i] · signs[j]. The reference views x[4, 4096, 4096] as 256 tiles of 16 per row
  and contracts every tile with h: out[n, s, 16t + j] = ∑ i, x[n, s, 16t + i] · h[j, i]. The kernel views x as 524288
  rows of 128 and multiplies every row by the 128 × 128 matrix W[16a + i, 16b + j] = δ(a, b) · h[j, i], 8192 rows per
  grid point; its bf16 narrowing changes no value on the extended reals. In the kernel's sum over 128 positions the
  112 terms outside tile b carry the factor 0 · h[j, i] = 0 and vanish (a product with zero is zero on the extended reals,
  so no finiteness of the inputs is used), the sixteen inside carry 1 · h[j, i]: the reference's sum.

  Proof/TileMix.lean states the common result and the block-diagonal law; Proof/RefValue.lean reads the reference's run
  down to it; Proof/KernelBody.lean reads one grid point's product, Proof/KernelHost.lean the matrix and the row view the
  host builds, Proof/KernelArray.lean the output array after the region, the final view, and the kernel's run. The
  idealization rewrote nothing, so `preserves` is trivial.
-/
import proofs.«146158_j37160057045074_1_alg».proof.Defs
import proofs.«146158_j37160057045074_1_alg».proof.Proof.Gen.Kernel
import proofs.«146158_j37160057045074_1_alg».proof.Proof.Gen.Kernel.Skeleton
import proofs.«146158_j37160057045074_1_alg».proof.Proof.Gen.Kernel.Launch
import proofs.«146158_j37160057045074_1_alg».proof.Proof.Gen.Kernel.Points
import proofs.«146158_j37160057045074_1_alg».proof.Proof.Gen.Kernel.Frame
import proofs.«146158_j37160057045074_1_alg».proof.Proof.Gen.KernelIdeal
import proofs.«146158_j37160057045074_1_alg».proof.Proof.Gen.KernelIdeal.Skeleton
import proofs.«146158_j37160057045074_1_alg».proof.Proof.Gen.KernelIdeal.Launch
import proofs.«146158_j37160057045074_1_alg».proof.Proof.Gen.KernelIdeal.Points
import proofs.«146158_j37160057045074_1_alg».proof.Proof.Gen.KernelIdeal.Frame
import proofs.«146158_j37160057045074_1_alg».proof.Proof.Gen.ReferenceIdeal
import proofs.«146158_j37160057045074_1_alg».proof.Proof.Gen.ReferenceIdeal.Run
import proofs.«146158_j37160057045074_1_alg».proof.Proof.Gen.ReferenceIdeal.Read
import proofs.«146158_j37160057045074_1_alg».proof.Proof.Gen.Pre_finite_inputs
import proofs.«146158_j37160057045074_1_alg».proof.Proof.TileMix
import proofs.«146158_j37160057045074_1_alg».proof.Proof.RefValue
import proofs.«146158_j37160057045074_1_alg».proof.Proof.KernelArray
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- Both programs end with the tile product of the arguments: the kernel's block-diagonal sums collapse to the
    reference's per-tile sums, entry by entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
